-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S257x192 : Shape := ⟨2, ![257, 192]⟩
abbrev S192 : Shape := ⟨1, ![192]⟩
abbrev S192x128 : Shape := ⟨2, ![192, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S257x192 : S_.BroadcastsInDim S257x192 (![] : Fin 0 → Fin S257x192.rank)
  reducesTo_S257x192_S_d0_1 : S257x192.ReducesTo [0, 1] S_
  bcast_S_S192 : S_.BroadcastsInDim S192 (![] : Fin 0 → Fin S192.rank)
  reducesTo_S192_S_d0 : S192.ReducesTo [0] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S192x128 .f32) (main_arg7 : FVec F S128 .f32) (main_v13 : IVec S_ 1) (main_v16 : IVec S192 1) : IVec S_ 1 :=
  let main_c_5 : IVec S_ 1 := constantI S_ 1 1#1
  let main_v17 : IVec S_ 1 := (fun x v => Host.reduce IntOp.andi x v reducesTo_S192_S_d0 h_S_) main_v16 main_c_5
  let main_v18 : IVec S_ 1 := andi main_v13 main_v17
  let main_v19 : FVec F S192x128 .f32 := Host.absf main_arg6
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S640000 .f32) (main_arg2 : IVec S640000 32) (main_arg3 : IVec S640000 32) (main_arg4 : FVec F S257x192 .f32) (main_arg5 : FVec F S192 .f32) (main_arg6 : FVec F S192x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S257x192 .f32 := Host.absf main_arg4
  let main_cst_2 : FVec F S_ .f32 := constant S_ .f32 0x7F800000#32
  let main_v10 : FVec F S257x192 .f32 := broadcastInDim S257x192 ![] bcast_S_S257x192 main_cst_2
  let main_v11 : IVec S257x192 1 := cmpf .olt main_v9 main_v10
  let main_c_3 : IVec S_ 1 := constantI S_ 1 1#1
  let main_v12 : IVec S_ 1 := (fun x v => Host.reduce IntOp.andi x v reducesTo_S257x192_S_d0_1 h_S_) main_v11 main_c_3
  let main_v13 : IVec S_ 1 := andi main_v8 main_v12
  let main_v14 : FVec F S192 .f32 := Host.absf main_arg5
  let main_cst_4 : FVec F S_ .f32 := constant S_ .f32 0x7F800000#32
  let main_v15 : FVec F S192 .f32 := broadcastInDim S192 ![] bcast_S_S192 main_cst_4
  let main_v16 : IVec S192 1 := cmpf .olt main_v14 main_v15
  fn_part1 (F := F) main_arg6 main_arg7 main_v13 main_v16
-- ==== Kernel.lean ====
abbrev S100000x128 : Shape := ⟨2, ![100000, 128]⟩
abbrev S640000 : Shape := ⟨1, ![640000]⟩
abbrev S257x192 : Shape := ⟨2, ![257, 192]⟩
abbrev S192 : Shape := ⟨1, ![192]⟩
abbrev S192x128 : Shape := ⟨2, ![192, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S640000x257 : Shape := ⟨2, ![640000, 257]⟩
abbrev S1x192 : Shape := ⟨2, ![1, 192]⟩
abbrev S1x128 : Shape := ⟨2, ![1, 128]⟩
abbrev S5120x257 : Shape := ⟨2, ![5120, 257]⟩
abbrev S5120x128 : Shape := ⟨2, ![5120, 128]⟩
abbrev S5120x192 : Shape := ⟨2, ![5120, 192]⟩

abbrev nBuf : Space → Nat
  | .hbm => 31
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S640000, .f32⟩
  | .hbm, ⟨2, _⟩ => ⟨S640000, .i32⟩
  | .hbm, ⟨3, _⟩ => ⟨S640000, .i32⟩
  | .hbm, ⟨4, _⟩ => ⟨S257x192, .f32⟩
  | .hbm, ⟨5, _⟩ => ⟨S192, .f32⟩
  | .hbm, ⟨6, _⟩ => ⟨S192x128, .f32⟩
  | .hbm, ⟨7, _⟩ => ⟨S128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x1, .f32⟩
  | .hbm, ⟨27, _⟩ => ⟨S640000x257, .f32⟩
  | .hbm, ⟨28, _⟩ => ⟨S1x192, .f32⟩
  | .hbm, ⟨29, _⟩ => ⟨S1x128, .f32⟩
  | .hbm, ⟨30, _⟩ => ⟨S640000x128, .f32⟩
  | .local _ .vmem, ⟨0, _⟩ => ⟨S5120x257, .f32⟩
  | .local _ .vmem, ⟨1, _⟩ => ⟨S5120x257, .f32⟩
  | .local _ .vmem, ⟨2, _⟩ => ⟨S257x192, .f32⟩
  | .local _ .vmem, ⟨3, _⟩ => ⟨S1x192, .f32⟩
  | .local _ .vmem, ⟨4, _⟩ => ⟨S192x128, .f32⟩
  | .local _ .vmem, ⟨5, _⟩ => ⟨S1x128, .f32⟩
  | .local _ .vmem, ⟨6, _⟩ => ⟨S5120x128, .f32⟩
  | .local _ .vmem, ⟨7, _⟩ => ⟨S5120x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S257x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5120x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x1_S640000x257_d1 : Shape.Concatenates [S640000x128, S640000x128, S640000x1] S640000x257 1
  shapeCasts_S192_S1x192 : S192.ShapeCasts S1x192
  shapeCasts_S128_S1x128 : S128.ShapeCasts S1x128
  inb_S5120x257_S5120x257_0_0 : ∀ a, (![0, 0] : Fin 2 → Nat) a + S5120x257.size a ≤ S5120x257.size a
  h_S5120x257 : 0 < S5120x257.numel
  shapeCasts_S5120x257_S5120x257 : S5120x257.ShapeCasts S5120x257
  bitsLt_bf16_f32 : FTy.bits .bf16 < FTy.bits .f32
  inb_S257x192_S257x192_0_0 : ∀ a, (![0, 0] : Fin 2 → Nat) a + S257x192.size a ≤ S257x192.size a
  h_S257x192 : 0 < S257x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5120x192 : S1x192.Broadcasts S5120x192
  inb_S192x128_S192x128_0_0 : ∀ a, (![0, 0] : Fin 2 → Nat) a + S192x128.size a ≤ S192x128.size a
  h_S192x128 : 0 < S192x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5120x128 : S1x128.Broadcasts S5120x128
  inb_S5120x128_S5120x128_0_0 : ∀ a, (![0, 0] : Fin 2 → Nat) a + S5120x128.size a ≤ S5120x128.size a
  h_S5120x128 : 0 < S5120x128.numel
  gather_S100000x128_S640000x1_S640000x128_1_0_n_n_0_1_1128_wf : GatherDims.WF S100000x128 S640000x1 S640000x128 [1] [0] [] [0] [] 1 ![1, 128]
  dot_S5120x257_S257x192_S5120x192_1_0_0_1_n_n_wf : DotDims.WF S5120x257 S257x192 S5120x192 [1] [0] [0] [1] [] []
  dot_S5120x192_S192x128_S5120x128_1_0_0_1_n_n_wf : DotDims.WF S5120x192 S192x128 S5120x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x257.size a ≤ S640000x257.size a
  hwx0_0 : ∀ i : grid0.Coords, EltTy.bits .f32 = 32 ∨ (Rect.block (s := S640000x257) S5120x257.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S257x192.size a ≤ S257x192.size a
  hwx0_1 : ∀ i : grid0.Coords, EltTy.bits .f32 = 32 ∨ (Rect.block (s := S257x192) S257x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x128.size a ≤ S192x128.size a
  hwx0_3 : ∀ i : grid0.Coords, EltTy.bits .f32 = 32 ∨ (Rect.block (s := S192x128) S192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5120x128.size a ≤ S640000x128.size a
  hwx0_5 : ∀ i : grid0.Coords, EltTy.bits .f32 = 32 ∨ (Rect.block (s := S640000x128) S5120x128.size (cc0_transform_5 i) (hinb0_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S5120x257_S257x192_S5120x192_1_0_0_1_n_n : DotDims S5120x257 S257x192 S5120x192 where
  lhsContracting := [1]
  rhsContracting := [0]
  lhsNonContracting := [0]
  rhsNonContracting := [1]
  lhsBatch := []
  rhsBatch := []
  wf := dot_S5120x257_S257x192_S5120x192_1_0_0_1_n_n_wf
def dot_S5120x192_S192x128_S5120x128_1_0_0_1_n_n : DotDims S5120x192 S192x128 S5120x128 where
  lhsContracting := [1]
  rhsContracting := [0]
  lhsNonContracting := [0]
  rhsNonContracting := [1]
  lhsBatch := []
  rhsBatch := []
  wf := dot_S5120x192_S192x128_S5120x128_1_0_0_1_n_n_wf

abbrev win0_0 : Pipeline.Window sig grid0 :=
  Pipeline.Window.ofSpec (Memref.whole main_v15) S5120x257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S257x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5120x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S640000 : Shape := ⟨1, ![640000]⟩
abbrev S257x192 : Shape := ⟨2, ![257, 192]⟩
abbrev S192 : Shape := ⟨1, ![192]⟩
abbrev S192x128 : Shape := ⟨2, ![192, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S640000x257 : Shape := ⟨2, ![640000, 257]⟩
abbrev S640000x192 : Shape := ⟨2, ![640000, 192]⟩
abbrev S1x192 : Shape := ⟨2, ![1, 192]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .f32⟩
  | .hbm, ⟨2, _⟩ => ⟨S640000, .i32⟩
  | .hbm, ⟨3, _⟩ => ⟨S640000, .i32⟩
  | .hbm, ⟨4, _⟩ => ⟨S257x192, .f32⟩
  | .hbm, ⟨5, _⟩ => ⟨S192, .f32⟩
  | .hbm, ⟨6, _⟩ => ⟨S192x128, .f32⟩
  | .hbm, ⟨7, _⟩ => ⟨S128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x1, .f32⟩
  | .hbm, ⟨27, _⟩ => ⟨S640000x257, .f32⟩
  | .hbm, ⟨28, _⟩ => ⟨S640000x192, .f32⟩
  | .hbm, ⟨29, _⟩ => ⟨S1x192, .f32⟩
  | .hbm, ⟨30, _⟩ => ⟨S640000x192, .f32⟩
  | .hbm, ⟨31, _⟩ => ⟨S640000x192, .f32⟩
  | .hbm, ⟨32, _⟩ => ⟨S_, .f32⟩
  | .hbm, ⟨33, _⟩ => ⟨S640000x192, .f32⟩
  | .hbm, ⟨34, _⟩ => ⟨S640000x192, .f32⟩
  | .hbm, ⟨35, _⟩ => ⟨S640000x128, .f32⟩
  | .hbm, ⟨36, _⟩ => ⟨S1x128, .f32⟩
  | .hbm, ⟨37, _⟩ => ⟨S640000x128, .f32⟩
  | .hbm, ⟨38, _⟩ => ⟨S640000x128, .f32⟩
  | .hbm, ⟨39, _⟩ => ⟨S640000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x1_S640000x257_d1 : Shape.Concatenates [S640000x128, S640000x128, S640000x1] S640000x257 1
  bcast_S192_S1x192_1 : S192.BroadcastsInDim S1x192 (![1] : Fin 1 → Fin S1x192.rank)
  bcast_S1x192_S640000x192_0_1 : S1x192.BroadcastsInDim S640000x192 (![0, 1] : Fin 2 → Fin S640000x192.rank)
  bcast_S_S640000x192 : S_.BroadcastsInDim S640000x192 (![] : Fin 0 → Fin S640000x192.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  gather_S100000x128_S640000x1_S640000x128_1_0_n_n_0_1_1128_wf : GatherDims.WF S100000x128 S640000x1 S640000x128 [1] [0] [] [0] [] 1 ![1, 128]
  dot_S640000x257_S257x192_S640000x192_1_0_0_1_n_n_wf : DotDims.WF S640000x257 S257x192 S640000x192 [1] [0] [0] [1] [] []
  dot_S640000x192_S192x128_S640000x128_1_0_0_1_n_n_wf : DotDims.WF S640000x192 S192x128 S640000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x257_S257x192_S640000x192_1_0_0_1_n_n : DotDims S640000x257 S257x192 S640000x192 where
  lhsContracting := [1]
  rhsContracting := [0]
  lhsNonContracting := [0]
  rhsNonContracting := [1]
  lhsBatch := []
  rhsBatch := []
  wf := dot_S640000x257_S257x192_S640000x192_1_0_0_1_n_n_wf
def dot_S640000x192_S192x128_S640000x128_1_0_0_1_n_n : DotDims S640000x192 S192x128 S640000x128 where
  lhsContracting := [1]
  rhsContracting := [0]
  lhsNonContracting := [0]
  rhsNonContracting := [1]
  lhsBatch := []
  rhsBatch := []
  wf := dot_S640000x192_S192x128_S640000x128_1_0_0_1_n_n_wf

class Facts : Prop extends Facts₀ where

variable [Facts]
-- ==== Proof.KernelRegion.lean ====
/-
  The run of `Kernel`'s one region, and its frame.

  @main is twenty-two host operations (the two row gathers of `h`, the column `dR`, their concatenation
  `inp : [640000, 257]`, and the two biases reshaped to rows) followed by one region on a grid of 125 points.
  Point `t` reads rows `5120 t … 5120 t + 5119` of `inp`, the whole of `W1`, `b1`, `W2`, `b2`, and writes rows
  `5120 t … 5120 t + 5119` of the result: `tanh (relu (x W1 + b1) W2 + b2)` of its block `x`.
  No host operation writes an argument array and the region writes only the result array, so every argument
  array ends as it was launched.
-/
import proofs.«102131_j34196529611289_1_alg».proof.Proof.Gen.Kernel.Launch
import proofs.«102131_j34196529611289_1_alg».proof.Proof.Gen.Kernel.Skeleton
import proofs.«102131_j34196529611289_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations write: their twenty-two results. -/
abbrev hostResults : List (Ref sig .tc) :=
  [main_c, main_v0, main_v1, main_c_0, main_v2, main_v3, main_v4, main_v5, main_v6, main_c_1, main_v7, main_v8,
    main_c_2, main_v9, main_v10, main_v11, main_v12, main_v13, main_v14, main_v15, main_v16, main_v17]

/-- Each host operation writes one of those. -/
theorem hostOps0_writes : (hostOps0 : List (HloOp τ sig (Elt F))).Forall fun op =>
    op.writes ⊆ (hostResults.map (Proc.devRef (τ := τ) .tc)).toFinset := by
  simp only [hostOps0, List.Forall, StableHlo.nullary_writes, StableHlo.unary_writes, StableHlo.binary_writes,
    StableHlo.ternary_writes, StableHlo.reshape_writes, StableHlo.nary_writes, Finset.singleton_subset_iff,
    List.mem_toFinset, List.mem_map]
  repeat' apply And.intro
  all_goals exact ⟨_, by decide, rfl⟩

/-- A buffer that is the result of no host operation is found by the region as launched. -/
theorem V_of_not_result (c : Dev nD) (a : Ref sig .tc) (ha : a ∉ hostResults) : V m c a = m ((c : Thread nD τ).loc a) :=
  StableHlo.after_of_writes_sub (r := a) hostOps0 _ hostOps0_writes ha

theorem V_main_arg0 (c : Dev nD) : V m c main_arg0 = m ((c : Thread nD τ).loc main_arg0) := V_of_not_result m c _ (by decide)
theorem V_main_arg1 (c : Dev nD) : V m c main_arg1 = m ((c : Thread nD τ).loc main_arg1) := V_of_not_result m c _ (by decide)
theorem V_main_arg2 (c : Dev nD) : V m c main_arg2 = m ((c : Thread nD τ).loc main_arg2) := V_of_not_result m c _ (by decide)
theorem V_main_arg3 (c : Dev nD) : V m c main_arg3 = m ((c : Thread nD τ).loc main_arg3) := V_of_not_result m c _ (by decide)
theorem V_main_arg4 (c : Dev nD) : V m c main_arg4 = m ((c : Thread nD τ).loc main_arg4) := V_of_not_result m c _ (by decide)
theorem V_main_arg5 (c : Dev nD) : V m c main_arg5 = m ((c : Thread nD τ).loc main_arg5) := V_of_not_result m c _ (by decide)
theorem V_main_arg6 (c : Dev nD) : V m c main_arg6 = m ((c : Thread nD τ).loc main_arg6) := V_of_not_result m c _ (by decide)
theorem V_main_arg7 (c : Dev nD) : V m c main_arg7 = m ((c : Thread nD τ).loc main_arg7) := V_of_not_result m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or
    not: the rows of `inp` are fetched at every point; the weights and biases once, and their block index never moves. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region run's -/

/-- From a run that ends with every staged array at what the proof data computes and every other unscoped buffer
    as the region found it: the eight argument arrays end as launched. `W1` and `W2` are staged inputs (read,
    never written back); the other six are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 1).trans (((dats 0 c).arrAt_in 1 rfl _).trans ((hA c 1).trans (V_main_arg4 m c))),
      ((h c).2 main_arg5 (Pipeline.mem_restRefs_of main_arg5 (by decide) (by decide))).trans (V_main_arg5 m c),
      ((h c).1 3).trans (((dats 0 c).arrAt_in 3 rfl _).trans ((hA c 3).trans (V_main_arg6 m c))),
      ((h c).2 main_arg7 (Pipeline.mem_restRefs_of main_arg7 (by decide) (by decide))).trans (V_main_arg7 m c)⟩) h

/-! ## The body's accesses: each a whole buffer -/

abbrev rX : Rect S5120x257 := Rect.unit (s := S5120x257) ![0, 0] S5120x257.size inb_S5120x257_S5120x257_0_0
abbrev rW1 : Rect S257x192 := Rect.unit (s := S257x192) ![0, 0] S257x192.size inb_S257x192_S257x192_0_0
abbrev rB1 : Rect S1x192 := Rect.unit (s := S1x192) ![0, 0] S1x192.size inb_S1x192_S1x192_0_0
abbrev rW2 : Rect S192x128 := Rect.unit (s := S192x128) ![0, 0] S192x128.size inb_S192x128_S192x128_0_0
abbrev rB2 : Rect S1x128 := Rect.unit (s := S1x128) ![0, 0] S1x128.size inb_S1x128_S1x128_0_0
abbrev rOut : Rect S5120x128 := Rect.unit (s := S5120x128) ![0, 0] S5120x128.size inb_S5120x128_S5120x128_0_0

/-! ## What the body leaves in the result window's buffer -/

/-- The result buffer after the body: its one store, the two-layer perceptron of the five blocks. -/
def outBlock (x : Vec F S5120x257 .f32) (w1 : Vec F S257x192 .f32) (b1 : Vec F S1x192 .f32) (w2 : Vec F S192x128 .f32) (b2 : Vec F S1x128 .f32) :
    Vec F S5120x128 .f32 :=
  View.canon [⟨rOut, k0_pay1 (View.ld x rX) (View.ld w1 rW1) (View.ld b1 rB1) (View.ld w2 rW2) (View.ld b2 rB2)⟩]

/-- The one store is of the whole buffer. -/
theorem outCover (p0 : Vec F S5120x128 .f32) (y : S5120x128.Idx) :
    ∃ pc ∈ ([⟨rOut, p0⟩] : List (View.Piece (Elt F) S5120x128 .f32)), y ∈ pc.1.set :=
  View.cover_of_tiled [⟨rOut, p0⟩] S5120x128.size (by rfl) y

/-! ## The body's triple -/

set_option maxHeartbeats 1000000 in
/-- The body on whole staging buffers, the five inputs' at read contents and the result's at anything, runs to a
    state with the inputs' as they were and the result's at `outBlock` of them. -/
theorem sound_kernel (c : Dev nD) (E : Set ℕ) (i : grid0.Coords)
    (arg1 : Memref sig .tc .vmem S5120x257 .f32) (harg1 : arg1.IsWhole) (arg2 : Memref sig .tc .vmem S257x192 .f32) (harg2 : arg2.IsWhole)
    (arg3 : Memref sig .tc .vmem S1x192 .f32) (harg3 : arg3.IsWhole) (arg4 : Memref sig .tc .vmem S192x128 .f32) (harg4 : arg4.IsWhole)
    (arg5 : Memref sig .tc .vmem S1x128 .f32) (harg5 : arg5.IsWhole) (arg6 : Memref sig .tc .vmem S5120x128 .f32) (harg6 : arg6.IsWhole)
    (x : Vec F S5120x257 .f32) (w1 : Vec F S257x192 .f32) (b1 : Vec F S1x192 .f32) (w2 : Vec F S192x128 .f32) (b2 : Vec F S1x128 .f32)
    (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (outBlock x w1 b1 w2 b2)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-! ## The pipeline's proof data -/

/-- The proof data on core `c`: the arrays as the region finds them; after the body at point `t` each input's
    buffer at its block and the result's at `outBlock` of the five blocks; the scoped rest and the generator
    register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every staged array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates and the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Region

end
-- ==== Proof.KernelIdealRegion.lean ====
/-
  The run of `KernelIdeal`'s one region, and its frame.

  @main is twenty-two host operations (the two row gathers of `h`, the column `dR`, their concatenation
  `inp : [640000, 257]`, and the two biases reshaped to rows) followed by one region on a grid of 125 points.
  Point `t` reads rows `5120 t … 5120 t + 5119` of `inp`, the whole of `W1`, `b1`, `W2`, `b2`, and writes rows
  `5120 t … 5120 t + 5119` of the result: `tanh (relu (x W1 + b1) W2 + b2)` of its block `x`.
  No host operation writes an argument array and the region writes only the result array, so every argument
  array ends as it was launched.
-/
import proofs.«102131_j34196529611289_1_alg».proof.Proof.Gen.KernelIdeal.Launch
import proofs.«102131_j34196529611289_1_alg».proof.Proof.Gen.KernelIdeal.Skeleton
import proofs.«102131_j34196529611289_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations write: their twenty-two results. -/
abbrev hostResults : List (Ref sig .tc) :=
  [main_c, main_v0, main_v1, main_c_0, main_v2, main_v3, main_v4, main_v5, main_v6, main_c_1, main_v7, main_v8,
    main_c_2, main_v9, main_v10, main_v11, main_v12, main_v13, main_v14, main_v15, main_v16, main_v17]

/-- Each host operation writes one of those. -/
theorem hostOps0_writes : (hostOps0 : List (HloOp τ sig (Elt F))).Forall fun op =>
    op.writes ⊆ (hostResults.map (Proc.devRef (τ := τ) .tc)).toFinset := by
  simp only [hostOps0, List.Forall, StableHlo.nullary_writes, StableHlo.unary_writes, StableHlo.binary_writes,
    StableHlo.ternary_writes, StableHlo.reshape_writes, StableHlo.nary_writes, Finset.singleton_subset_iff,
    List.mem_toFinset, List.mem_map]
  repeat' apply And.intro
  all_goals exact ⟨_, by decide, rfl⟩

/-- A buffer that is the result of no host operation is found by the region as launched. -/
theorem V_of_not_result (c : Dev nD) (a : Ref sig .tc) (ha : a ∉ hostResults) : V m c a = m ((c : Thread nD τ).loc a) :=
  StableHlo.after_of_writes_sub (r := a) hostOps0 _ hostOps0_writes ha

theorem V_main_arg0 (c : Dev nD) : V m c main_arg0 = m ((c : Thread nD τ).loc main_arg0) := V_of_not_result m c _ (by decide)
theorem V_main_arg1 (c : Dev nD) : V m c main_arg1 = m ((c : Thread nD τ).loc main_arg1) := V_of_not_result m c _ (by decide)
theorem V_main_arg2 (c : Dev nD) : V m c main_arg2 = m ((c : Thread nD τ).loc main_arg2) := V_of_not_result m c _ (by decide)
theorem V_main_arg3 (c : Dev nD) : V m c main_arg3 = m ((c : Thread nD τ).loc main_arg3) := V_of_not_result m c _ (by decide)
theorem V_main_arg4 (c : Dev nD) : V m c main_arg4 = m ((c : Thread nD τ).loc main_arg4) := V_of_not_result m c _ (by decide)
theorem V_main_arg5 (c : Dev nD) : V m c main_arg5 = m ((c : Thread nD τ).loc main_arg5) := V_of_not_result m c _ (by decide)
theorem V_main_arg6 (c : Dev nD) : V m c main_arg6 = m ((c : Thread nD τ).loc main_arg6) := V_of_not_result m c _ (by decide)
theorem V_main_arg7 (c : Dev nD) : V m c main_arg7 = m ((c : Thread nD τ).loc main_arg7) := V_of_not_result m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or
    not: the rows of `inp` are fetched at every point; the weights and biases once, and their block index never moves. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region run's -/

/-- From a run that ends with every staged array at what the proof data computes and every other unscoped buffer
    as the region found it: the eight argument arrays end as launched. `W1` and `W2` are staged inputs (read,
    never written back); the other six are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 1).trans (((dats 0 c).arrAt_in 1 rfl _).trans ((hA c 1).trans (V_main_arg4 m c))),
      ((h c).2 main_arg5 (Pipeline.mem_restRefs_of main_arg5 (by decide) (by decide))).trans (V_main_arg5 m c),
      ((h c).1 3).trans (((dats 0 c).arrAt_in 3 rfl _).trans ((hA c 3).trans (V_main_arg6 m c))),
      ((h c).2 main_arg7 (Pipeline.mem_restRefs_of main_arg7 (by decide) (by decide))).trans (V_main_arg7 m c)⟩) h

/-! ## The body's accesses: each a whole buffer -/

abbrev rX : Rect S5120x257 := Rect.unit (s := S5120x257) ![0, 0] S5120x257.size inb_S5120x257_S5120x257_0_0
abbrev rW1 : Rect S257x192 := Rect.unit (s := S257x192) ![0, 0] S257x192.size inb_S257x192_S257x192_0_0
abbrev rB1 : Rect S1x192 := Rect.unit (s := S1x192) ![0, 0] S1x192.size inb_S1x192_S1x192_0_0
abbrev rW2 : Rect S192x128 := Rect.unit (s := S192x128) ![0, 0] S192x128.size inb_S192x128_S192x128_0_0
abbrev rB2 : Rect S1x128 := Rect.unit (s := S1x128) ![0, 0] S1x128.size inb_S1x128_S1x128_0_0
abbrev rOut : Rect S5120x128 := Rect.unit (s := S5120x128) ![0, 0] S5120x128.size inb_S5120x128_S5120x128_0_0

/-! ## What the body leaves in the result window's buffer -/

/-- The result buffer after the body: its one store, the two-layer perceptron of the five blocks. -/
def outBlock (x : Vec F S5120x257 .f32) (w1 : Vec F S257x192 .f32) (b1 : Vec F S1x192 .f32) (w2 : Vec F S192x128 .f32) (b2 : Vec F S1x128 .f32) :
    Vec F S5120x128 .f32 :=
  View.canon [⟨rOut, k0_pay1 (View.ld x rX) (View.ld w1 rW1) (View.ld b1 rB1) (View.ld w2 rW2) (View.ld b2 rB2)⟩]

/-- The one store is of the whole buffer. -/
theorem outCover (p0 : Vec F S5120x128 .f32) (y : S5120x128.Idx) :
    ∃ pc ∈ ([⟨rOut, p0⟩] : List (View.Piece (Elt F) S5120x128 .f32)), y ∈ pc.1.set :=
  View.cover_of_tiled [⟨rOut, p0⟩] S5120x128.size (by rfl) y

/-! ## The body's triple -/

set_option maxHeartbeats 1000000 in
/-- The body on whole staging buffers, the five inputs' at read contents and the result's at anything, runs to a
    state with the inputs' as they were and the result's at `outBlock` of them. -/
theorem sound_kernel (c : Dev nD) (E : Set ℕ) (i : grid0.Coords)
    (arg1 : Memref sig .tc .vmem S5120x257 .f32) (harg1 : arg1.IsWhole) (arg2 : Memref sig .tc .vmem S257x192 .f32) (harg2 : arg2.IsWhole)
    (arg3 : Memref sig .tc .vmem S1x192 .f32) (harg3 : arg3.IsWhole) (arg4 : Memref sig .tc .vmem S192x128 .f32) (harg4 : arg4.IsWhole)
    (arg5 : Memref sig .tc .vmem S1x128 .f32) (harg5 : arg5.IsWhole) (arg6 : Memref sig .tc .vmem S5120x128 .f32) (harg6 : arg6.IsWhole)
    (x : Vec F S5120x257 .f32) (w1 : Vec F S257x192 .f32) (b1 : Vec F S1x192 .f32) (w2 : Vec F S192x128 .f32) (b2 : Vec F S1x128 .f32)
    (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (outBlock x w1 b1 w2 b2)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-! ## The pipeline's proof data -/

/-- The proof data on core `c`: the arrays as the region finds them; after the body at point `t` each input's
    buffer at its block and the result's at `outBlock` of the five blocks; the scoped rest and the generator
    register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every staged array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates and the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Region

end
-- ==== Proof.Mlp.lean ====
/-
  The function both programs compute, one entry of the result at a time.

  For a row `x` of 257 features (the destination node's 128, the source node's 128, the edge length), the hidden
  layer is `relu (x · W1 + b1)` (192 entries) and the result row is `tanh (hidden · W2 + b2)` (128 entries), all
  on the extended reals: sums of products in any order, `max` with zero, the exact hyperbolic tangent.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The relu's threshold: the value of the all-zero word, which is `0`. -/
abbrev zeroWord : EReal := Ideal.ofBits .f32 0x00000000#32

/-- Entry `k` of the hidden layer of the row `x`: `max (∑ l, x l · W1 l k + b1 k) 0`. -/
def hidden (x : Fin 257 → EReal) (w1 : Fin 257 → Fin 192 → EReal) (b1 : Fin 192 → EReal) (k : Fin 192) : EReal :=
  max ((∑ l : Fin 257, x l * w1 l k) + b1 k) zeroWord

/-- Entry `j` of the result row of `x`: `tanh (∑ k, hidden k · W2 k j + b2 j)`. -/
def out (x : Fin 257 → EReal) (w1 : Fin 257 → Fin 192 → EReal) (b1 : Fin 192 → EReal)
    (w2 : Fin 192 → Fin 128 → EReal) (b2 : Fin 128 → EReal) (j : Fin 128) : EReal :=
  Ideal.tanh ((∑ k : Fin 192, hidden x w1 b1 k * w2 k j) + b2 j)

/-- `out` depends on its five arguments only through their values. -/
theorem out_congr {x x' : Fin 257 → EReal} {w1 w1' : Fin 257 → Fin 192 → EReal} {b1 b1' : Fin 192 → EReal}
    {w2 w2' : Fin 192 → Fin 128 → EReal} {b2 b2' : Fin 128 → EReal} (j : Fin 128)
    (hx : ∀ l, x l = x' l) (hw1 : ∀ l k, w1 l k = w1' l k) (hb1 : ∀ k, b1 k = b1' k)
    (hw2 : ∀ k j, w2 k j = w2' k j) (hb2 : ∀ j, b2 j = b2' j) :
    out x w1 b1 w2 b2 j = out x' w1' b1' w2' b2' j := by
  obtain rfl : x = x' := funext hx
  obtain rfl : w1 = w1' := funext fun l => funext (hw1 l)
  obtain rfl : b1 = b1' := funext hb1
  obtain rfl : w2 = w2' := funext fun k => funext (hw2 k)
  obtain rfl : b2 = b2' := funext hb2
  rfl

/-- The whole result array: entry `(e, j)` is `out` of row `e` of the edge features. -/
def result (inp : (⟨2, ![640000, 257]⟩ : Shape).Idx → EReal) (W1 : (⟨2, ![257, 192]⟩ : Shape).Idx → EReal)
    (b1 : (⟨1, ![192]⟩ : Shape).Idx → EReal) (W2 : (⟨2, ![192, 128]⟩ : Shape).Idx → EReal)
    (b2 : (⟨1, ![128]⟩ : Shape).Idx → EReal) : (⟨2, ![640000, 128]⟩ : Shape).Idx → EReal :=
  fun i => out (fun l => inp (ix2 (i 0) l)) (fun l k => W1 (ix2 l k)) (fun k => b1 (ix1 k))
    (fun k j => W2 (ix2 k j)) (fun j => b2 (ix1 j)) (i 1)

end Cert.Mlp

end
-- ==== Proof.KernelIdealPayload.lean ====
/-
  What the body of `KernelIdeal`'s kernel stores, read at one entry of its block, at the ideal values: the rounding to
  bf16 before each product is the identity, each matrix product into the zero accumulator is the plain sum over the
  contracted axis, the bias row is broadcast down the block's rows, and the `tanh` is the exact one. So entry `(p, q)`
  of the stored block is `Mlp.out` of row `p` of the block of edge features.
-/
import proofs.«102131_j34196529611289_1_alg».proof.Proof.Gen.KernelIdeal.Skeleton
import proofs.«102131_j34196529611289_1_alg».proof.Proof.Mlp
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The two matrix products at an entry -/

local notation "D1" => dot_S5120x257_S257x192_S5120x192_1_0_0_1_n_n
local notation "D2" => dot_S5120x192_S192x128_S5120x128_1_0_0_1_n_n

theorem lhs1_0 (i : S5120x192.Idx) (q : dot_S5120x257_S257x192_S5120x192_1_0_0_1_n_n.contr.Idx) :
    (dot_S5120x257_S257x192_S5120x192_1_0_0_1_n_n.lhsIdx i q 0).val = (i 0).val := by
  unfold DotDims.lhsIdx
  rw [dif_neg (show ¬(0 : Fin S5120x257.rank) ∈ dot_S5120x257_S257x192_S5120x192_1_0_0_1_n_n.lhsBatch by decide), dif_pos (show (0 : Fin S5120x257.rank) ∈ dot_S5120x257_S257x192_S5120x192_1_0_0_1_n_n.lhsNonContracting by decide)]
  rfl
theorem lhs1_1 (i : S5120x192.Idx) (q : dot_S5120x257_S257x192_S5120x192_1_0_0_1_n_n.contr.Idx) :
    (dot_S5120x257_S257x192_S5120x192_1_0_0_1_n_n.lhsIdx i q 1).val = (q ⟨0, by decide⟩).val :=
  dot_S5120x257_S257x192_S5120x192_1_0_0_1_n_n.lhsIdx_val_of_single rfl i q
theorem rhs1_0 (i : S5120x192.Idx) (q : dot_S5120x257_S257x192_S5120x192_1_0_0_1_n_n.contr.Idx) :
    (dot_S5120x257_S257x192_S5120x192_1_0_0_1_n_n.rhsIdx i q 0).val = (q ⟨0, by decide⟩).val :=
  dot_S5120x257_S257x192_S5120x192_1_0_0_1_n_n.rhsIdx_val_of_single rfl i q
theorem rhs1_1 (i : S5120x192.Idx) (q : dot_S5120x257_S257x192_S5120x192_1_0_0_1_n_n.contr.Idx) :
    (dot_S5120x257_S257x192_S5120x192_1_0_0_1_n_n.rhsIdx i q 1).val = (i 1).val := by
  unfold DotDims.rhsIdx
  rw [dif_neg (show ¬(1 : Fin S257x192.rank) ∈ dot_S5120x257_S257x192_S5120x192_1_0_0_1_n_n.rhsBatch by decide), dif_pos (show (1 : Fin S257x192.rank) ∈ dot_S5120x257_S257x192_S5120x192_1_0_0_1_n_n.rhsNonContracting by decide)]
  rfl

/-- The first product into zeros, at `(p, k)`: row `p` of the left factor against column `k` of the right. -/
theorem product1_apply (x : FVec Ideal S5120x257 .bf16) (w : FVec Ideal S257x192 .bf16) (i : S5120x192.Idx) :
    matmul dot_S5120x257_S257x192_S5120x192_1_0_0_1_n_n none x w (constant S5120x192 .f32 0x00000000#32) i
      = ∑ l : Fin 257, x (ix2 (i 0) l) * w (ix2 l (i 1)) := by
  simp only [matmul]
  rw [Ideal.matmul_constant_zero_apply, ← Equiv.sum_comp (contrEquiv1 dot_S5120x257_S257x192_S5120x192_1_0_0_1_n_n 257 rfl rfl).symm]
  refine Finset.sum_congr rfl fun k _ => ?_
  have hk := contrEquiv1_symm_val dot_S5120x257_S257x192_S5120x192_1_0_0_1_n_n 257 rfl rfl k
  have el : dot_S5120x257_S257x192_S5120x192_1_0_0_1_n_n.lhsIdx i ((contrEquiv1 dot_S5120x257_S257x192_S5120x192_1_0_0_1_n_n 257 rfl rfl).symm k) = ix2 (i 0) k := funext fun a => Fin.ext (by
    match a with
    | ⟨0, _⟩ => exact lhs1_0 _ _
    | ⟨1, _⟩ => exact (lhs1_1 _ _).trans hk)
  have er : dot_S5120x257_S257x192_S5120x192_1_0_0_1_n_n.rhsIdx i ((contrEquiv1 dot_S5120x257_S257x192_S5120x192_1_0_0_1_n_n 257 rfl rfl).symm k) = ix2 k (i 1) := funext fun a => Fin.ext (by
    match a with
    | ⟨0, _⟩ => exact (rhs1_0 _ _).trans hk
    | ⟨1, _⟩ => exact rhs1_1 _ _)
  rw [el, er]
  rfl

theorem lhs2_0 (i : S5120x128.Idx) (q : dot_S5120x192_S192x128_S5120x128_1_0_0_1_n_n.contr.Idx) :
    (dot_S5120x192_S192x128_S5120x128_1_0_0_1_n_n.lhsIdx i q 0).val = (i 0).val := by
  unfold DotDims.lhsIdx
  rw [dif_neg (show ¬(0 : Fin S5120x192.rank) ∈ dot_S5120x192_S192x128_S5120x128_1_0_0_1_n_n.lhsBatch by decide), dif_pos (show (0 : Fin S5120x192.rank) ∈ dot_S5120x192_S192x128_S5120x128_1_0_0_1_n_n.lhsNonContracting by decide)]
  rfl
theorem lhs2_1 (i : S5120x128.Idx) (q : dot_S5120x192_S192x128_S5120x128_1_0_0_1_n_n.contr.Idx) :
    (dot_S5120x192_S192x128_S5120x128_1_0_0_1_n_n.lhsIdx i q 1).val = (q ⟨0, by decide⟩).val :=
  dot_S5120x192_S192x128_S5120x128_1_0_0_1_n_n.lhsIdx_val_of_single rfl i q
theorem rhs2_0 (i : S5120x128.Idx) (q : dot_S5120x192_S192x128_S5120x128_1_0_0_1_n_n.contr.Idx) :
    (dot_S5120x192_S192x128_S5120x128_1_0_0_1_n_n.rhsIdx i q 0).val = (q ⟨0, by decide⟩).val :=
  dot_S5120x192_S192x128_S5120x128_1_0_0_1_n_n.rhsIdx_val_of_single rfl i q
theorem rhs2_1 (i : S5120x128.Idx) (q : dot_S5120x192_S192x128_S5120x128_1_0_0_1_n_n.contr.Idx) :
    (dot_S5120x192_S192x128_S5120x128_1_0_0_1_n_n.rhsIdx i q 1).val = (i 1).val := by
  unfold DotDims.rhsIdx
  rw [dif_neg (show ¬(1 : Fin S192x128.rank) ∈ dot_S5120x192_S192x128_S5120x128_1_0_0_1_n_n.rhsBatch by decide), dif_pos (show (1 : Fin S192x128.rank) ∈ dot_S5120x192_S192x128_S5120x128_1_0_0_1_n_n.rhsNonContracting by decide)]
  rfl

/-- The second product into zeros, at `(p, q)`. -/
theorem product2_apply (x : FVec Ideal S5120x192 .bf16) (w : FVec Ideal S192x128 .bf16) (i : S5120x128.Idx) :
    matmul dot_S5120x192_S192x128_S5120x128_1_0_0_1_n_n none x w (constant S5120x128 .f32 0x00000000#32) i
      = ∑ k : Fin 192, x (ix2 (i 0) k) * w (ix2 k (i 1)) := by
  simp only [matmul]
  rw [Ideal.matmul_constant_zero_apply, ← Equiv.sum_comp (contrEquiv1 dot_S5120x192_S192x128_S5120x128_1_0_0_1_n_n 192 rfl rfl).symm]
  refine Finset.sum_congr rfl fun k _ => ?_
  have hk := contrEquiv1_symm_val dot_S5120x192_S192x128_S5120x128_1_0_0_1_n_n 192 rfl rfl k
  have el : dot_S5120x192_S192x128_S5120x128_1_0_0_1_n_n.lhsIdx i ((contrEquiv1 dot_S5120x192_S192x128_S5120x128_1_0_0_1_n_n 192 rfl rfl).symm k) = ix2 (i 0) k := funext fun a => Fin.ext (by
    match a with
    | ⟨0, _⟩ => exact lhs2_0 _ _
    | ⟨1, _⟩ => exact (lhs2_1 _ _).trans hk)
  have er : dot_S5120x192_S192x128_S5120x128_1_0_0_1_n_n.rhsIdx i ((contrEquiv1 dot_S5120x192_S192x128_S5120x128_1_0_0_1_n_n 192 rfl rfl).symm k) = ix2 k (i 1) := funext fun a => Fin.ext (by
    match a with
    | ⟨0, _⟩ => exact (rhs2_0 _ _).trans hk
    | ⟨1, _⟩ => exact rhs2_1 _ _)
  rw [el, er]
  rfl

/-! ## The layers at an entry -/

variable (x : FVec Ideal S5120x257 .f32) (w1 : FVec Ideal S257x192 .f32) (b1 : FVec Ideal S1x192 .f32)
  (w2 : FVec Ideal S192x128 .f32) (b2 : FVec Ideal S1x128 .f32)

/-- The hidden activations the body computes, at `(p, k)`: entry `k` of the hidden layer of the block's row `p`. -/
theorem hidden_apply (hx : S5120x257.ShapeCasts S5120x257) (hb : S1x192.ShapeCasts S1x192) (hbc : S1x192.Broadcasts S5120x192)
    (hlt : FTy.bits .bf16 < FTy.bits .f32) (p : Fin 5120) (k : Fin 192) :
    maximumf (F := Ideal) (addf (F := Ideal) (matmul (F := Ideal) dot_S5120x257_S257x192_S5120x192_1_0_0_1_n_n none
          (truncf (F := Ideal) .bf16 (shapeCast S5120x257 x hx) hlt) (truncf (F := Ideal) .bf16 w1 hlt)
          (constant (F := Ideal) S5120x192 .f32 0x00000000#32)) (broadcastTo S5120x192 (shapeCast S1x192 b1 hb) hbc))
      (broadcast S5120x192 (Scalar.ofBits (F := Ideal) .f32 0x00000000#32)) (ix2 p k)
      = Cert.Mlp.hidden (fun l => x (ix2 p l)) (fun l k => w1 (ix2 l k)) (fun k => b1 (ix2 (0 : Fin 1) k)) k := by
  rw [shapeCast_self, shapeCast_self]
  show max (matmul (F := Ideal) dot_S5120x257_S257x192_S5120x192_1_0_0_1_n_n none (truncf (F := Ideal) .bf16 x hlt) (truncf (F := Ideal) .bf16 w1 hlt)
        (constant (F := Ideal) S5120x192 .f32 0x00000000#32) (ix2 p k)
      + broadcastTo S5120x192 b1 hbc (ix2 p k)) (Ideal.ofBits .f32 0x00000000#32) = _
  rw [product1_apply, broadcastTo_1b_ab_apply]
  rfl

/-- Entry `(p, q)` of the block the body stores is `Mlp.out` of row `p` of its block of edge features. -/
theorem stored_apply (p : Fin 5120) (q : Fin 128) :
    k0_pay1 (F := Ideal) x w1 b1 w2 b2 (ix2 p q)
      = Cert.Mlp.out (fun l => x (ix2 p l)) (fun l k => w1 (ix2 l k)) (fun k => b1 (ix2 (0 : Fin 1) k))
          (fun k j => w2 (ix2 k j)) (fun j => b2 (ix2 (0 : Fin 1) j)) q := by
  unfold k0_pay1 Cert.Mlp.out
  dsimp only
  refine congrArg Ideal.tanh ?_
  refine congrArg₂ (· + ·) ?_ ?_
  · refine (product2_apply _ _ (ix2 p q)).trans ?_
    refine Finset.sum_congr rfl fun k _ => ?_
    refine congrArg₂ (· * ·) ?_ rfl
    exact hidden_apply x w1 b1 _ _ _ _ p k
  · refine (broadcastTo_1b_ab_apply _ _ p q).trans ?_
    exact congrFun (shapeCast_self b2 _) _

end Cert.KernelIdeal.Payload

end
-- ==== Proof.KernelIdealResult.lean ====
/-
  The result array of `KernelIdeal` after its run, as one function of the argument arrays.

  The host operations leave in `inp` the concatenation, along the feature axis, of the rows of `h` gathered at the
  (wrapped) destination indices, the rows gathered at the (wrapped) source indices, and the column `dR`; and in the
  two bias rows the reshaped `b1`, `b2`. Grid point `t` reads block `t` of `inp` (rows `5120 t …`), all of `W1`,
  `b1`, `W2`, `b2`, and writes back block `t` of the result, whose entry `(p, q)` is `Mlp.out` of row `p` of its
  block of `inp`: that is row `5120 t + p` of `inp`. The 125 blocks tile the 640000 rows, so the array ends at
  `Mlp.result inp W1 b1 W2 b2`.
-/
import proofs.«102131_j34196529611289_1_alg».proof.Proof.KernelIdealRegion
import proofs.«102131_j34196529611289_1_alg».proof.Proof.KernelIdealPayload
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Result

open Cert.KernelIdeal Cert.KernelIdeal.Gen Cert.KernelIdeal.Region Cert.KernelIdeal.Payload
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## What the host operations leave -/

/-- The edge features: row `e` is row `dst e` of `h` (a negative index wrapped by 100000), then row `src e` of `h`,
    then `dR e`. -/
def edgeFeatures (h : (⟨S100000x128, .f32⟩ : BufTy).Contents (Elt Ideal)) (dR : (⟨S640000, .f32⟩ : BufTy).Contents (Elt Ideal))
    (src dst : (⟨S640000, .i32⟩ : BufTy).Contents (Elt Ideal)) : (⟨S640000x257, .f32⟩ : BufTy).Contents (Elt Ideal) :=
  concatenate S640000x257 1 [⟨S640000x128, (Host.gather gather_S100000x128_S640000x1_S640000x128_1_0_n_n_0_1_1128 (h) (broadcastInDim S640000x1 ![0] bcast_S640000_S640000x1_0 (select (cmpi .slt (dst) (broadcastInDim S640000 ![] bcast_S_S640000 (constantI S_ 32 0#32))) (addi (dst) (broadcastInDim S640000 ![] bcast_S_S640000 (constantI S_ 32 100000#32))) (dst))))⟩, ⟨S640000x128, (Host.gather gather_S100000x128_S640000x1_S640000x128_1_0_n_n_0_1_1128 (h) (broadcastInDim S640000x1 ![0] bcast_S640000_S640000x1_0 (select (cmpi .slt (src) (broadcastInDim S640000 ![] bcast_S_S640000 (constantI S_ 32 0#32))) (addi (src) (broadcastInDim S640000 ![] bcast_S_S640000 (constantI S_ 32 100000#32))) (src))))⟩, ⟨S640000x1, (broadcastInDim S640000x1 ![0] bcast_S640000_S640000x1_0 (dR))⟩] concatenates_S640000x128_S640000x128_S640000x1_S640000x257_d1

set_option maxHeartbeats 1000000 in
theorem V_inp (c : Dev nD) :
    (V m c main_v15 : S640000x257.Idx → EReal)
      = edgeFeatures (m ((c.tc : Thread nD τ).loc main_arg0)) (m ((c.tc : Thread nD τ).loc main_arg1))
          (m ((c.tc : Thread nD τ).loc main_arg2)) (m ((c.tc : Thread nD τ).loc main_arg3)) := by
  dsimp only [V, hostOps0]
  unfold edgeFeatures
  after_results_simp <;> rfl

theorem V_bias1 (c : Dev nD) :
    (V m c main_v16 : S1x192.Idx → EReal) = shapeCast S1x192 (m ((c.tc : Thread nD τ).loc main_arg5)) shapeCasts_S192_S1x192 := by
  dsimp only [V, hostOps0]
  after_results
  rfl

theorem V_bias2 (c : Dev nD) :
    (V m c main_v17 : S1x128.Idx → EReal) = shapeCast S1x128 (m ((c.tc : Thread nD τ).loc main_arg7)) shapeCasts_S128_S1x128 := by
  dsimp only [V, hostOps0]
  after_results
  rfl

/-! ## The whole result -/

/-- What the result array ends holding. -/
def whole (c : Dev nD) : S640000x128.Idx → EReal :=
  Cert.Mlp.result (V m c main_v15) (m ((c.tc : Thread nD τ).loc main_arg4)) (m ((c.tc : Thread nD τ).loc main_arg5))
    (m ((c.tc : Thread nD τ).loc main_arg6)) (m ((c.tc : Thread nD τ).loc main_arg7))

theorem hz : (![0, 0] : Fin 2 → Nat) = fun _ => 0 := funext fun a => by fin_cases a <;> rfl

/-- The printed index maps over the grid: the rows of `inp` and of the result move with the point, the weights and
    biases stay at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `5120 t + p` of the array. -/
theorem row_lt (t : Fin cfg0.N) (p : Fin 5120) : t.val * 5120 + p.val < 640000 := by
  have ht : t.val < 125 := lt_of_lt_of_eq t.isLt N_0
  have hp := p.isLt
  omega

theorem emb_inp (t : Fin cfg0.N) (p : Fin 5120) (l : Fin 257) :
    ((cfg0.win 0).blk t).view.emb (ix2 p l) = ix2 (⟨t.val * 5120 + p.val, row_lt t p⟩ : Fin 640000) l := by
  obtain ⟨e00, e01, -⟩ := idx_facts t
  funext a; apply Fin.ext
  match a with
  | ⟨0, _⟩ => show win0_0.index t (0 : Fin 2) * 5120 + 1 * p.val = t.val * 5120 + p.val; omega
  | ⟨1, _⟩ => show win0_0.index t (1 : Fin 2) * 257 + 1 * l.val = l.val; omega

theorem emb_w1 (t : Fin cfg0.N) (l : Fin 257) (k : Fin 192) : ((cfg0.win 1).blk t).view.emb (ix2 l k) = ix2 l k := by
  obtain ⟨-, -, e10, e11, -⟩ := idx_facts t
  funext a; apply Fin.ext
  match a with
  | ⟨0, _⟩ => show win0_1.index t (0 : Fin 2) * 257 + 1 * l.val = l.val; omega
  | ⟨1, _⟩ => show win0_1.index t (1 : Fin 2) * 192 + 1 * k.val = k.val; omega

theorem emb_b1 (t : Fin cfg0.N) (u : Fin 1) (k : Fin 192) : ((cfg0.win 2).blk t).view.emb (ix2 u k) = ix2 u k := by
  obtain ⟨-, -, -, -, e20, e21, -⟩ := idx_facts t
  funext a; apply Fin.ext
  match a with
  | ⟨0, _⟩ => show win0_2.index t (0 : Fin 2) * 1 + 1 * u.val = u.val; omega
  | ⟨1, _⟩ => show win0_2.index t (1 : Fin 2) * 192 + 1 * k.val = k.val; omega

theorem emb_w2 (t : Fin cfg0.N) (k : Fin 192) (j : Fin 128) : ((cfg0.win 3).blk t).view.emb (ix2 k j) = ix2 k j := by
  obtain ⟨-, -, -, -, -, -, e30, e31, -⟩ := idx_facts t
  funext a; apply Fin.ext
  match a with
  | ⟨0, _⟩ => show win0_3.index t (0 : Fin 2) * 192 + 1 * k.val = k.val; omega
  | ⟨1, _⟩ => show win0_3.index t (1 : Fin 2) * 128 + 1 * j.val = j.val; omega

theorem emb_b2 (t : Fin cfg0.N) (u : Fin 1) (j : Fin 128) : ((cfg0.win 4).blk t).view.emb (ix2 u j) = ix2 u j := by
  obtain ⟨-, -, -, -, -, -, -, -, e40, e41, -⟩ := idx_facts t
  funext a; apply Fin.ext
  match a with
  | ⟨0, _⟩ => show win0_4.index t (0 : Fin 2) * 1 + 1 * u.val = u.val; omega
  | ⟨1, _⟩ => show win0_4.index t (1 : Fin 2) * 128 + 1 * j.val = j.val; omega

theorem emb_out (t : Fin cfg0.N) (p : Fin 5120) (q : Fin 128) :
    ((cfg0.win 5).blk t).view.emb (ix2 p q) = ix2 (⟨t.val * 5120 + p.val, row_lt t p⟩ : Fin 640000) q := by
  obtain ⟨-, -, -, -, -, -, -, -, -, -, e50, e51⟩ := idx_facts t
  funext a; apply Fin.ext
  match a with
  | ⟨0, _⟩ => show win0_5.index t (0 : Fin 2) * 5120 + 1 * p.val = t.val * 5120 + p.val; omega
  | ⟨1, _⟩ => show win0_5.index t (1 : Fin 2) * 128 + 1 * q.val = q.val; omega

/-- What point `t` writes back is block `t` of `whole`. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  unfold outBlock
  rw [View.canon_unit_zero hz]
  simp only [View.ld_unit_zero (S := S5120x257) hz, View.ld_unit_zero (S := S257x192) hz, View.ld_unit_zero (S := S1x192) hz,
    View.ld_unit_zero (S := S192x128) hz, View.ld_unit_zero (S := S1x128) hz]
  funext j
  obtain ⟨p, q, rfl⟩ : ∃ (p : Fin 5120) (q : Fin 128), j = ix2 p q := ⟨j 0, j 1, eq_ix2 j⟩
  refine (stored_apply (iblk m c 0 t) (iblk m c 1 t) (iblk m c 2 t) (iblk m c 3 t) (iblk m c 4 t) p q).trans ?_
  refine Eq.trans ?_ (congrArg (whole m c) (emb_out t p q)).symm
  show _ = Cert.Mlp.out (fun l => V m c main_v15 (ix2 (⟨t.val * 5120 + p.val, row_lt t p⟩ : Fin 640000) l))
    (fun l k => m ((c.tc : Thread nD τ).loc main_arg4) (ix2 l k)) (fun k => m ((c.tc : Thread nD τ).loc main_arg5) (ix1 k))
    (fun k j => m ((c.tc : Thread nD τ).loc main_arg6) (ix2 k j)) (fun j => m ((c.tc : Thread nD τ).loc main_arg7) (ix1 j)) q
  refine Cert.Mlp.out_congr q (fun l => ?_) (fun l k => ?_) (fun k => ?_) (fun k j => ?_) (fun j => ?_)
  · show V m c main_v15 (((cfg0.win 0).blk t).view.emb (ix2 p l)) = _
    exact congrArg (V m c main_v15) (emb_inp t p l)
  · show V m c main_arg4 (((cfg0.win 1).blk t).view.emb (ix2 l k)) = _
    exact (congrArg (V m c main_arg4) (emb_w1 t l k)).trans (congrFun (V_main_arg4 m c) _)
  · show V m c main_v16 (((cfg0.win 2).blk t).view.emb (ix2 (0 : Fin 1) k)) = _
    refine (congrArg (V m c main_v16) (emb_b1 t 0 k)).trans ?_
    refine (congrFun (V_bias1 m c) _).trans ?_
    exact shapeCast_a_1a_apply _ _ 0 k
  · show V m c main_arg6 (((cfg0.win 3).blk t).view.emb (ix2 k j)) = _
    exact (congrArg (V m c main_arg6) (emb_w2 t k j)).trans (congrFun (V_main_arg6 m c) _)
  · show V m c main_v17 (((cfg0.win 4).blk t).view.emb (ix2 (0 : Fin 1) j)) = _
    refine (congrArg (V m c main_v17) (emb_b2 t 0 j)).trans ?_
    refine (congrFun (V_bias2 m c) _).trans ?_
    exact shapeCast_a_1a_apply _ _ 0 j

/-- An index of the result array is in point `t`'s block iff its row is one of the block's 5120. -/
theorem mem_blk (t : Fin cfg0.N) (i : S640000x128.Idx) :
    i ∈ ((cfg0.win 5).blk t).view.set ↔ ∀ a : Fin 2, win0_5.index t a * S5120x128.size a ≤ (i a).val ∧ (i a).val < win0_5.index t a * S5120x128.size a + S5120x128.size a := by
  show i ∈ ((View.whole main_v18).slice (win0_5.rect t)).set ↔ _
  rw [View.set_slice_whole, Rect.mem_set_unit]
  exact Iff.rfl

/-- Every index of the result array is in the block of the point its row belongs to: point `row / 5120`. -/
theorem cover (i : S640000x128.Idx) : ∃ t : Fin cfg0.N, (cfg0.win 5).flush t = true ∧ i ∈ ((cfg0.win 5).blk t).view.set := by
  have hi0 : (i 0).val < 640000 := (i 0).isLt
  have hi1 : (i 1).val < 128 := (i 1).isLt
  have hN : cfg0.N = 125 := N_0
  let t : Fin cfg0.N := ⟨(i 0).val / 5120, by rw [hN]; omega⟩
  obtain ⟨-, -, -, -, -, -, -, -, -, -, e50, e51⟩ := idx_facts t
  have ht : t.val = (i 0).val / 5120 := rfl
  refine ⟨t, flush0_5 t, ?_⟩
  rw [mem_blk]
  intro a
  match a with
  | ⟨0, _⟩ => show win0_5.index t (0 : Fin 2) * 5120 ≤ (i 0).val ∧ (i 0).val < win0_5.index t (0 : Fin 2) * 5120 + 5120; omega
  | ⟨1, _⟩ => show win0_5.index t (1 : Fin 2) * 128 ≤ (i 1).val ∧ (i 1).val < win0_5.index t (1 : Fin 2) * 128 + 128; omega

/-- The result array after the run. -/
theorem final (c : Dev nD) : (dats m 0 c).arrAt 5 cfg0.N = whole m c :=
  (dats m 0 c).arrAt_eq_of_cover 5 (whole m c) (fun t _ => flushed_eq m c t) (cover)

/-! ## The run, read -/

/-- Every weakly fair execution of @main terminates with the result array at `Mlp.result` of the edge features and the
    four weight arrays as launched, and the eight argument arrays unchanged. -/
theorem run : θ_run defs (onTc (τ := τ) (main (F := Ideal))) ⟨m, fun _ => 0, ρ⟩ fun r => ∀ c : Dev nD,
      r.2.mem ((c.tc : Thread nD τ).loc main_v18)
        = Cert.Mlp.result (edgeFeatures (m ((c.tc : Thread nD τ).loc main_arg0)) (m ((c.tc : Thread nD τ).loc main_arg1))
              (m ((c.tc : Thread nD τ).loc main_arg2)) (m ((c.tc : Thread nD τ).loc main_arg3)))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(((h c).1 5).trans (final m c)).trans (by unfold whole; rw [V_inp]),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 1).trans (((dats m 0 c).arrAt_in 1 rfl _).trans ((A_eq m c 1).trans (V_main_arg4 m c))),
      ((h c).2 main_arg5 (Pipeline.mem_restRefs_of main_arg5 (by decide) (by decide))).trans (V_main_arg5 m c),
      ((h c).1 3).trans (((dats m 0 c).arrAt_in 3 rfl _).trans ((A_eq m c 3).trans (V_main_arg6 m c))),
      ((h c).2 main_arg7 (Pipeline.mem_restRefs_of main_arg7 (by decide) (by decide))).trans (V_main_arg7 m c)⟩)
    (run_main m ρ)

end Cert.KernelIdeal.Result

end
-- ==== Proof.RefValue.lean ====
/-
  The reference's result is `Mlp.result` of the edge features it concatenates and of its four weight arrays:
  its two `dot_general`s are the two sums, its two broadcast biases the two added rows, its `relu` the `max` with
  the zero word, its `tanh` the exact one.
-/
import proofs.«102131_j34196529611289_1_alg».proof.Proof.Gen.ReferenceIdeal.Read
import proofs.«102131_j34196529611289_1_alg».proof.Proof.Mlp

noncomputable section

namespace Cert.ReferenceIdeal.RefValue

open Cert.ReferenceIdeal Cert.ReferenceIdeal.Read Idealize.ShloMosaic Idealize.ShloMosaic.ValueIdx

variable (x0 : (⟨S100000x128, .f32⟩ : BufTy).Contents (Elt Ideal)) (x1 : (⟨S640000, .f32⟩ : BufTy).Contents (Elt Ideal))
  (x2 x3 : (⟨S640000, .i32⟩ : BufTy).Contents (Elt Ideal)) (x4 : (⟨S257x192, .f32⟩ : BufTy).Contents (Elt Ideal))
  (x5 : (⟨S192, .f32⟩ : BufTy).Contents (Elt Ideal)) (x6 : (⟨S192x128, .f32⟩ : BufTy).Contents (Elt Ideal))
  (x7 : (⟨S128, .f32⟩ : BufTy).Contents (Elt Ideal))

theorem lidx16 (j : S640000x192.Idx) (l : Fin 257) : lidx_main_v16 j l = ix2 (j 0) l :=
  funext fun a => by match a with | ⟨0, _⟩ => rfl | ⟨1, _⟩ => rfl
theorem ridx16 (j : S640000x192.Idx) (l : Fin 257) : ridx_main_v16 j l = ix2 l (j 1) :=
  funext fun a => by match a with | ⟨0, _⟩ => rfl | ⟨1, _⟩ => rfl
theorem bias1 (j : S640000x192.Idx) : idx_main_v17 (idx_main_v18 j) = ix1 (j 1) :=
  funext fun a => by match a with | ⟨0, _⟩ => rfl
theorem lidx21 (i : S640000x128.Idx) (k : Fin 192) : lidx_main_v21 i k = ix2 (i 0) k :=
  funext fun a => by match a with | ⟨0, _⟩ => rfl | ⟨1, _⟩ => rfl
theorem ridx21 (i : S640000x128.Idx) (k : Fin 192) : ridx_main_v21 i k = ix2 k (i 1) :=
  funext fun a => by match a with | ⟨0, _⟩ => rfl | ⟨1, _⟩ => rfl
theorem bias2 (i : S640000x128.Idx) : idx_main_v22 (idx_main_v23 i) = ix1 (i 1) :=
  funext fun a => by match a with | ⟨0, _⟩ => rfl

/-- The reference's hidden activations at `(e, k)`: entry `k` of the hidden layer of row `e`. -/
theorem hidden_eq (e : Fin 640000) (k : Fin 192) :
    val_main_v20 (F := Ideal) x0 x1 x2 x3 x4 x5 (ix2 e k)
      = Cert.Mlp.hidden (fun l => val_main_v15 (F := Ideal) x0 x1 x2 x3 (ix2 e l)) (fun l k => x4 (ix2 l k)) (fun k => x5 (ix1 k)) k := by
  rw [val_main_v20_apply, val_main_v19_apply, val_main_v16_apply, val_main_v18_apply, val_main_v17_apply,
    val_main_call0_v0_apply, val_main_call0_cst_apply, bias1]
  simp only [lidx16, ridx16]
  rfl

/-- The reference's result array is `Mlp.result` of its concatenated edge features and its weights. -/
theorem result_eq :
    val_main_v25 (F := Ideal) x0 x1 x2 x3 x4 x5 x6 x7
      = Cert.Mlp.result (val_main_v15 (F := Ideal) x0 x1 x2 x3) x4 x5 x6 x7 := by
  funext i
  rw [val_main_v25_apply, val_main_v24_apply, val_main_v21_apply, val_main_v23_apply, val_main_v22_apply, bias2]
  simp only [lidx21, ridx21]
  unfold Cert.Mlp.result Cert.Mlp.out
  exact congrArg Ideal.tanh (congrArg₂ (· + ·)
    (Finset.sum_congr rfl fun k _ => congrArg₂ (· * ·) (hidden_eq x0 x1 x2 x3 x4 x5 (i 0) k) rfl) rfl)

end Cert.ReferenceIdeal.RefValue

end
-- ==== Proof.lean ====
/-
  Edge network of a message-passing layer: for each of 640000 edges, the features are the destination node's row
  of `h`, the source node's row of `h` and the edge length `dR` (257 numbers), and the result row is
  `tanh (relu (features · W1 + b1) · W2 + b2)` (128 numbers).

  The kernel gathers and concatenates the features on the host exactly as the reference does, then runs the two
  layers in one region over blocks of 5120 edges, rounding the factors of each product to bf16; the reference
  multiplies whole matrices. On the extended reals the rounding is the identity, a product into a zero
  accumulator is the plain sum over the contracted axis, and the blocks tile the edges, so both programs end with
  the same array (`Mlp.result`, Proof/Mlp.lean): entry `(e, j)` depends on row `e` of the features only, and the
  kernel's block `e / 5120` computes it from that same row. No law beyond the commutative-monoid laws of `+` is
  used, so finiteness of the inputs is never opened.

  Frames: each program's host operations write only their own results and the region writes back only the result
  array, so every argument array ends as launched (Proof/KernelRegion.lean, Proof/KernelIdealRegion.lean; the
  reference's from its run). The idealization rewrote nothing, so `preserves` is `True`.
-/
import proofs.«102131_j34196529611289_1_alg».proof.Defs
import proofs.«102131_j34196529611289_1_alg».proof.Proof.Gen.Kernel
import proofs.«102131_j34196529611289_1_alg».proof.Proof.Gen.KernelIdeal
import proofs.«102131_j34196529611289_1_alg».proof.Proof.Gen.ReferenceIdeal
import proofs.«102131_j34196529611289_1_alg».proof.Proof.Gen.Pre_finite_inputs
import proofs.«102131_j34196529611289_1_alg».proof.Proof.Gen.ReferenceIdeal.Run
import proofs.«102131_j34196529611289_1_alg».proof.Proof.Gen.ReferenceIdeal.Read
import proofs.«102131_j34196529611289_1_alg».proof.Proof.KernelRegion
import proofs.«102131_j34196529611289_1_alg».proof.Proof.KernelIdealRegion
import proofs.«102131_j34196529611289_1_alg».proof.Proof.KernelIdealResult
import proofs.«102131_j34196529611289_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Region.frame m ρ

theorem frame_kernelIdeal : Cert.frame_KernelIdeal := fun m ρ _ => Cert.KernelIdeal.Region.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs build the edge features by the same host operations of the same arguments. -/
theorem features_eq (h : (⟨Cert.KernelIdeal.S100000x128, .f32⟩ : BufTy).Contents (Elt Ideal))
    (dR : (⟨Cert.KernelIdeal.S640000, .f32⟩ : BufTy).Contents (Elt Ideal))
    (src dst : (⟨Cert.KernelIdeal.S640000, .i32⟩ : BufTy).Contents (Elt Ideal)) :
    Cert.ReferenceIdeal.Read.val_main_v15 (F := Ideal) h dR src dst = Cert.KernelIdeal.Result.edgeFeatures h dR src dst := rfl

/-- From memories that agree on the arguments both programs end with `Mlp.result` of the same edge features and
    the same weights. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v25_eq, Cert.ReferenceIdeal.RefValue.result_eq, a0, a1, a2, a3, a4, a5, a6, a7,
    features_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
